-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128 : Shape := ⟨2, ![16, 128]⟩
abbrev S32000x256 : Shape := ⟨2, ![32000, 256]⟩
abbrev S256x256 : Shape := ⟨2, ![256, 256]⟩
abbrev S256 : Shape := ⟨1, ![256]⟩
abbrev S_ : Shape := ⟨0, ![]⟩

class Facts : Prop where
  bcast_S_S32000x256 : S_.BroadcastsInDim S32000x256 (![] : Fin 0 → Fin S32000x256.rank)
  reducesTo_S32000x256_S_d0_1 : S32000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_arg6 : FVec F S256x256 .f32) (main_arg7 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : IVec S16x128 32) (main_arg1 : FVec F S32000x256 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S32000x256 .f32 := Host.absf main_arg1
  let main_cst : FVec F S_ .f32 := constant S_ .f32 0x7F800000#32
  let main_v1 : FVec F S32000x256 .f32 := broadcastInDim S32000x256 ![] bcast_S_S32000x256 main_cst
  let main_v2 : IVec S32000x256 1 := cmpf .olt main_v0 main_v1
  let main_c : IVec S_ 1 := constantI S_ 1 1#1
  let main_v3 : IVec S_ 1 := (fun x v => Host.reduce IntOp.andi x v reducesTo_S32000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S16x128 : Shape := ⟨2, ![16, 128]⟩
abbrev S32000x256 : Shape := ⟨2, ![32000, 256]⟩
abbrev S256x256 : Shape := ⟨2, ![256, 256]⟩
abbrev S256 : Shape := ⟨1, ![256]⟩
abbrev S_ : Shape := ⟨0, ![]⟩
abbrev S16x128x1 : Shape := ⟨3, ![16, 128, 1]⟩
abbrev S16x128x256 : Shape := ⟨3, ![16, 128, 256]⟩
abbrev S1x256 : Shape := ⟨2, ![1, 256]⟩
abbrev S16x1x256 : Shape := ⟨3, ![16, 1, 256]⟩
abbrev S1x128x256 : Shape := ⟨3, ![1, 128, 256]⟩
abbrev S1x1x256 : Shape := ⟨3, ![1, 1, 256]⟩
abbrev S128x256 : Shape := ⟨2, ![128, 256]⟩
abbrev S32x256 : Shape := ⟨2, ![32, 256]⟩
abbrev S128x1x256 : Shape := ⟨3, ![128, 1, 256]⟩
abbrev S1x32x256 : Shape := ⟨3, ![1, 32, 256]⟩
abbrev S128x32x256 : Shape := ⟨3, ![128, 32, 256]⟩
abbrev S16x256 : Shape := ⟨2, ![16, 256]⟩

abbrev nBuf : Space → Nat
  | .hbm => 22
  | .vmem => 10
  | .smem => 0
  | _ => 0

abbrev bufTy : (tb : Table) → Fin (tcTables nBuf tb) → BufTy
  | .hbm, ⟨0, _⟩ => ⟨S16x128, .i32⟩
  | .hbm, ⟨1, _⟩ => ⟨S32000x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S_, .i32⟩
  | .hbm, ⟨9, _⟩ => ⟨S16x128, .i32⟩
  | .hbm, ⟨10, _⟩ => ⟨S16x128, .i1⟩
  | .hbm, ⟨11, _⟩ => ⟨S_, .i32⟩
  | .hbm, ⟨12, _⟩ => ⟨S16x128, .i32⟩
  | .hbm, ⟨13, _⟩ => ⟨S16x128, .i32⟩
  | .hbm, ⟨14, _⟩ => ⟨S16x128, .i32⟩
  | .hbm, ⟨15, _⟩ => ⟨S16x128x1, .i32⟩
  | .hbm, ⟨16, _⟩ => ⟨S16x128x256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S16x1x256, .f32⟩
  | .hbm, ⟨21, _⟩ => ⟨S16x256, .f32⟩
  | .local _ .vmem, ⟨0, _⟩ => ⟨S1x128x256, .f32⟩
  | .local _ .vmem, ⟨1, _⟩ => ⟨S1x128x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x1x256, .f32⟩
  | .local _ .vmem, ⟨9, _⟩ => ⟨S1x1x256, .f32⟩
  | _, _ => ⟨S16x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S16x128 : S_.BroadcastsInDim S16x128 (![] : Fin 0 → Fin S16x128.rank)
  bcast_S16x128_S16x128x1_0_1 : S16x128.BroadcastsInDim S16x128x1 (![0, 1] : Fin 2 → Fin S16x128x1.rank)
  shapeCasts_S256_S1x256 : S256.ShapeCasts S1x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  slices_S128x256_o0_0_S32x256 : S128x256.Slices ![0, 0] S32x256
  shapeCasts_S128x256_S128x1x256 : S128x256.ShapeCasts S128x1x256
  shapeCasts_S32x256_S1x32x256 : S32x256.ShapeCasts S1x32x256
  broadcasts_S128x1x256_S128x32x256 : S128x1x256.Broadcasts S128x32x256
  broadcasts_S1x32x256_S128x32x256 : S1x32x256.Broadcasts S128x32x256
  reduces_S128x32x256_S32x256 : S128x32x256.Reduces [0] S32x256
  reduces_S32x256_S256 : S32x256.Reduces [0] S256
  slices_S128x256_o32_0_S32x256 : S128x256.Slices ![32, 0] S32x256
  slices_S128x256_o64_0_S32x256 : S128x256.Slices ![64, 0] S32x256
  slices_S128x256_o96_0_S32x256 : S128x256.Slices ![96, 0] S32x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  shapeCasts_S16x1x256_S16x256 : S16x1x256.ShapeCasts S16x256
  gather_S32000x256_S16x128x1_S16x128x256_2_0_n_n_0_2_1256_wf : GatherDims.WF S32000x256 S16x128x1 S16x128x256 [2] [0] [] [0] [] 2 ![1, 256]
  dot_S128x256_S256x256_S128x256_1_0_0_1_n_n_wf : DotDims.WF S128x256 S256x256 S128x256 [1] [0] [0] [1] [] []
  dot_S1x256_S256x256_S1x256_1_0_0_1_n_n_wf : DotDims.WF S1x256 S256x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256.size a ≤ S16x128x256.size a
  hwx0_0 : ∀ i : grid0.Coords, EltTy.bits .f32 = 32 ∨ (Rect.block (s := S16x128x256) S1x128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256.size a ≤ S16x1x256.size a
  hwx0_7 : ∀ i : grid0.Coords, EltTy.bits .f32 = 32 ∨ (Rect.block (s := S16x1x256) S1x1x256.size (cc0_transform_7 i) (hinb0_7 i)).WholeWords (EltTy.packing .f32)

variable [Facts₀]

def gather_S32000x256_S16x128x1_S16x128x256_2_0_n_n_0_2_1256 : GatherDims S32000x256 S16x128x1 S16x128x256 where
  offsetDims := [2]
  collapsedSliceDims := [0]
  operandBatchingDims := []
  startIndicesBatchingDims := []
  startIndexMap := [0]
  indexVectorDim := 2
  sliceSizes := ![1, 256]
  wf := gather_S32000x256_S16x128x1_S16x128x256_2_0_n_n_0_2_1256_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

abbrev win0_0 : Pipeline.Window sig grid0 :=
  Pipeline.Window.ofSpec (Memref.whole main_v6) S1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x1x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x128 : Shape := ⟨2, ![16, 128]⟩
abbrev S32000x256 : Shape := ⟨2, ![32000, 256]⟩
abbrev S256x256 : Shape := ⟨2, ![256, 256]⟩
abbrev S256 : Shape := ⟨1, ![256]⟩
abbrev S_ : Shape := ⟨0, ![]⟩
abbrev S16x128x1 : Shape := ⟨3, ![16, 128, 1]⟩
abbrev S16x128x256 : Shape := ⟨3, ![16, 128, 256]⟩
abbrev S1x1x256 : Shape := ⟨3, ![1, 1, 256]⟩
abbrev S16x128x1x256 : Shape := ⟨4, ![16, 128, 1, 256]⟩
abbrev S16x1x128x256 : Shape := ⟨4, ![16, 1, 128, 256]⟩
abbrev S16x128x128x256 : Shape := ⟨4, ![16, 128, 128, 256]⟩
abbrev S16x256 : Shape := ⟨2, ![16, 256]⟩
abbrev S1x256 : Shape := ⟨2, ![1, 256]⟩

abbrev nBuf : Space → Nat
  | .hbm => 45
  | .vmem => 0
  | .smem => 0
  | _ => 0

abbrev bufTy : (tb : Table) → Fin (tcTables nBuf tb) → BufTy
  | .hbm, ⟨0, _⟩ => ⟨S16x128, .i32⟩
  | .hbm, ⟨1, _⟩ => ⟨S32000x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S_, .i32⟩
  | .hbm, ⟨9, _⟩ => ⟨S16x128, .i32⟩
  | .hbm, ⟨10, _⟩ => ⟨S16x128, .i1⟩
  | .hbm, ⟨11, _⟩ => ⟨S_, .i32⟩
  | .hbm, ⟨12, _⟩ => ⟨S16x128, .i32⟩
  | .hbm, ⟨13, _⟩ => ⟨S16x128, .i32⟩
  | .hbm, ⟨14, _⟩ => ⟨S16x128, .i32⟩
  | .hbm, ⟨15, _⟩ => ⟨S16x128x1, .i32⟩
  | .hbm, ⟨16, _⟩ => ⟨S16x128x256, .f32⟩
  | .hbm, ⟨17, _⟩ => ⟨S256x256, .f32⟩
  | .hbm, ⟨18, _⟩ => ⟨S16x128x256, .f32⟩
  | .hbm, ⟨19, _⟩ => ⟨S1x1x256, .f32⟩
  | .hbm, ⟨20, _⟩ => ⟨S16x128x256, .f32⟩
  | .hbm, ⟨21, _⟩ => ⟨S16x128x256, .f32⟩
  | .hbm, ⟨22, _⟩ => ⟨S256x256, .f32⟩
  | .hbm, ⟨23, _⟩ => ⟨S16x128x256, .f32⟩
  | .hbm, ⟨24, _⟩ => ⟨S1x1x256, .f32⟩
  | .hbm, ⟨25, _⟩ => ⟨S16x128x256, .f32⟩
  | .hbm, ⟨26, _⟩ => ⟨S16x128x256, .f32⟩
  | .hbm, ⟨27, _⟩ => ⟨S16x128x1x256, .f32⟩
  | .hbm, ⟨28, _⟩ => ⟨S16x1x128x256, .f32⟩
  | .hbm, ⟨29, _⟩ => ⟨S16x128x128x256, .f32⟩
  | .hbm, ⟨30, _⟩ => ⟨S16x128x128x256, .f32⟩
  | .hbm, ⟨31, _⟩ => ⟨S16x128x128x256, .f32⟩
  | .hbm, ⟨32, _⟩ => ⟨S_, .f32⟩
  | .hbm, ⟨33, _⟩ => ⟨S16x128x128x256, .f32⟩
  | .hbm, ⟨34, _⟩ => ⟨S16x128x128x256, .f32⟩
  | .hbm, ⟨35, _⟩ => ⟨S_, .f32⟩
  | .hbm, ⟨36, _⟩ => ⟨S16x256, .f32⟩
  | .hbm, ⟨37, _⟩ => ⟨S_, .f32⟩
  | .hbm, ⟨38, _⟩ => ⟨S16x256, .f32⟩
  | .hbm, ⟨39, _⟩ => ⟨S16x256, .f32⟩
  | .hbm, ⟨40, _⟩ => ⟨S256x256, .f32⟩
  | .hbm, ⟨41, _⟩ => ⟨S16x256, .f32⟩
  | .hbm, ⟨42, _⟩ => ⟨S1x256, .f32⟩
  | .hbm, ⟨43, _⟩ => ⟨S16x256, .f32⟩
  | .hbm, ⟨44, _⟩ => ⟨S16x256, .f32⟩
  | _, _ => ⟨S16x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_cst : Ref sig .tc := ⟨.hbm, 32, rfl⟩
abbrev main_call0_v0 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  bcast_S_S16x128 : S_.BroadcastsInDim S16x128 (![] : Fin 0 → Fin S16x128.rank)
  bcast_S16x128_S16x128x1_0_1 : S16x128.BroadcastsInDim S16x128x1 (![0, 1] : Fin 2 → Fin S16x128x1.rank)
  transposes_S256x256_S256x256_1_0 : S256x256.Transposes [1, 0] S256x256
  bcast_S256_S1x1x256_2 : S256.BroadcastsInDim S1x1x256 (![2] : Fin 1 → Fin S1x1x256.rank)
  bcast_S1x1x256_S16x128x256_0_1_2 : S1x1x256.BroadcastsInDim S16x128x256 (![0, 1, 2] : Fin 3 → Fin S16x128x256.rank)
  bcast_S16x128x256_S16x128x1x256_0_1_3 : S16x128x256.BroadcastsInDim S16x128x1x256 (![0, 1, 3] : Fin 3 → Fin S16x128x1x256.rank)
  bcast_S16x128x256_S16x1x128x256_0_2_3 : S16x128x256.BroadcastsInDim S16x1x128x256 (![0, 2, 3] : Fin 3 → Fin S16x1x128x256.rank)
  bcast_S16x128x1x256_S16x128x128x256_0_1_2_3 : S16x128x1x256.BroadcastsInDim S16x128x128x256 (![0, 1, 2, 3] : Fin 4 → Fin S16x128x128x256.rank)
  bcast_S16x1x128x256_S16x128x128x256_0_1_2_3 : S16x1x128x256.BroadcastsInDim S16x128x128x256 (![0, 1, 2, 3] : Fin 4 → Fin S16x128x128x256.rank)
  bcast_S_S16x128x128x256 : S_.BroadcastsInDim S16x128x128x256 (![] : Fin 0 → Fin S16x128x128x256.rank)
  reducesTo_S16x128x128x256_S16x256_d1_2 : S16x128x128x256.ReducesTo [1, 2] S16x256
  h_S_ : 0 < S_.numel
  bcast_S_S16x256 : S_.BroadcastsInDim S16x256 (![] : Fin 0 → Fin S16x256.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  gather_S32000x256_S16x128x1_S16x128x256_2_0_n_n_0_2_1256_wf : GatherDims.WF S32000x256 S16x128x1 S16x128x256 [2] [0] [] [0] [] 2 ![1, 256]
  dot_S16x128x256_S256x256_S16x128x256_2_0_01_1_n_n_wf : DotDims.WF S16x128x256 S256x256 S16x128x256 [2] [0] [0, 1] [1] [] []
  dot_S16x256_S256x256_S16x256_1_0_0_1_n_n_wf : DotDims.WF S16x256 S256x256 S16x256 [1] [0] [0] [1] [] []

variable [Facts₀]

def gather_S32000x256_S16x128x1_S16x128x256_2_0_n_n_0_2_1256 : GatherDims S32000x256 S16x128x1 S16x128x256 where
  offsetDims := [2]
  collapsedSliceDims := [0]
  operandBatchingDims := []
  startIndicesBatchingDims := []
  startIndexMap := [0]
  indexVectorDim := 2
  sliceSizes := ![1, 256]
  wf := gather_S32000x256_S16x128x1_S16x128x256_2_0_n_n_0_2_1256_wf
def dot_S16x128x256_S256x256_S16x128x256_2_0_01_1_n_n : DotDims S16x128x256 S256x256 S16x128x256 where
  lhsContracting := [2]
  rhsContracting := [0]
  lhsNonContracting := [0, 1]
  rhsNonContracting := [1]
  lhsBatch := []
  rhsBatch := []
  wf := dot_S16x128x256_S256x256_S16x128x256_2_0_01_1_n_n_wf
def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf

class Facts : Prop extends Facts₀ where

variable [Facts]
-- ==== Proof.Spec.lean ====
/-
  The mathematics both programs compute, over the extended reals.

  For a batch row `s`, a token `i` and a feature `k`, the two projections of the gathered embedding rows are
    L(s,i,k) = Σ_d E(s,i,d)·Wl(k,d) + bl(k),    R(s,j,k) = Σ_d E(s,j,d)·Wr(k,d) + br(k);
  the pooled feature is the mean over all S² = 16384 ordered pairs of tokens of relu(L_i + R_j),
    pooled(s,k) = (Σ_i Σ_j max(L(s,i,k) + R(s,j,k), 0)) / 16384,
  and the result is its last projection, out(s,n) = Σ_k pooled(s,k)·Wrel(n,k) + brel(n).

  The kernel adds the pairs up tile by tile — four tiles of 32 values of `j`, inside a tile first over `i` and
  then over `j`, the four tile totals added to a running total that starts at zero — where the reference takes
  one sum over both token axes. Addition of extended reals is commutative and associative, so the two orders
  agree with no finiteness assumption (`pairs_by_tiles`).
-/
import Idealize.ShloMosaic.Lib.ValueIdx
import Idealize.ShloMosaic.PureOps.Ideal.Laws
import Mathlib.Algebra.BigOperators.Fin
import Mathlib.Logic.Equiv.Fin.Basic

noncomputable section

open scoped BigOperators

namespace Cert.Spec

open Idealize.ShloMosaic Idealize.ShloMosaic.ValueIdx

/-- The gathered embedding rows, [16, 128, 256]. -/
abbrev Emb := (⟨3, ![16, 128, 256]⟩ : Shape).Idx → EReal
/-- A weight matrix, [256, 256], read (output feature, input feature). -/
abbrev Mat := (⟨2, ![256, 256]⟩ : Shape).Idx → EReal
/-- A bias vector, [256]. -/
abbrev Bias := (⟨1, ![256]⟩ : Shape).Idx → EReal

/-- The number of ordered token pairs, 128² = 16384, as the f32 word both programs divide by. -/
def pairCount : EReal := Ideal.ofBits .f32 0x46800000#32

/-- One projection of one token: Σ_d E(s,i,d)·W(k,d) + b(k). -/
def proj (E : Emb) (W : Mat) (b : Bias) (s : Fin 16) (i : Fin 128) (k : Fin 256) : EReal :=
  (∑ d : Fin 256, E (ix3 s i d) * W (ix2 k d)) + b (ix1 k)

/-- The rectified pair value relu(L_i + R_j) at feature `k`. -/
def pair (E : Emb) (Wl : Mat) (bl : Bias) (Wr : Mat) (br : Bias) (s : Fin 16) (k : Fin 256) (i j : Fin 128) : EReal :=
  max (proj E Wl bl s i k + proj E Wr br s j k) 0

/-- The mean of the pair values over all ordered pairs of tokens. -/
def pooled (E : Emb) (Wl : Mat) (bl : Bias) (Wr : Mat) (br : Bias) (s : Fin 16) (k : Fin 256) : EReal :=
  Ideal.div (∑ i : Fin 128, ∑ j : Fin 128, pair E Wl bl Wr br s k i j) pairCount

/-- The result at batch row `s`, output feature `n`. -/
def out (E : Emb) (Wl : Mat) (bl : Bias) (Wr : Mat) (br : Bias) (Wrel : Mat) (brel : Bias) (s : Fin 16) (n : Fin 256) : EReal :=
  (∑ k : Fin 256, pooled E Wl bl Wr br s k * Wrel (ix2 n k)) + brel (ix1 n)

/-- The whole result array, [16, 256]. -/
def result (E : Emb) (Wl : Mat) (bl : Bias) (Wr : Mat) (br : Bias) (Wrel : Mat) (brel : Bias) :
    (⟨2, ![16, 256]⟩ : Shape).Idx → EReal :=
  fun i => out E Wl bl Wr br Wrel brel (i 0) (i 1)

/-! ## Summing the second token axis tile by tile -/

/-- Token `o + j` of the tile that starts at `o`. -/
def tileTok (o : Nat) (h : o ≤ 96) (j : Fin 32) : Fin 128 := ⟨o + j.val, by have := j.isLt; omega⟩

/-- A sum over 128 tokens is the sum of its four tiles of 32. -/
theorem sum_four_tiles {M : Type*} [AddCommMonoid M] (g : Fin 128 → M) :
    ∑ j : Fin 128, g j
      = (∑ j : Fin 32, g (tileTok 0 (by decide) j)) + (∑ j : Fin 32, g (tileTok 32 (by decide) j))
        + (∑ j : Fin 32, g (tileTok 64 (by decide) j)) + (∑ j : Fin 32, g (tileTok 96 (by decide) j)) := by
  have e := Equiv.sum_comp (finProdFinEquiv (m := 4) (n := 32)) g
  rw [Fintype.sum_prod_type, Fin.sum_univ_four] at e
  rw [← e]
  have hg : ∀ (a : Fin 4) (o : Nat) (h : o ≤ 96), o = 32 * a.val →
      (∑ j : Fin 32, g (finProdFinEquiv (a, j))) = ∑ j : Fin 32, g (tileTok o h j) := by
    intro a o h ho
    refine Finset.sum_congr rfl fun j _ => congrArg g (Fin.ext ?_)
    show j.val + 32 * a.val = o + j.val
    omega
  rw [hg 0 0 (by decide) rfl, hg 1 32 (by decide) rfl, hg 2 64 (by decide) rfl, hg 3 96 (by decide) rfl]

/-- The double sum over all pairs is the kernel's running total: from zero, one tile of the second token axis
    at a time, each tile summed over the first token axis inside and over its 32 second tokens outside. -/
theorem pairs_by_tiles {M : Type*} [AddCommMonoid M] (f : Fin 128 → Fin 128 → M) :
    ∑ i : Fin 128, ∑ j : Fin 128, f i j
      = (((0 + ∑ j : Fin 32, ∑ i : Fin 128, f i (tileTok 0 (by decide) j))
          + ∑ j : Fin 32, ∑ i : Fin 128, f i (tileTok 32 (by decide) j))
          + ∑ j : Fin 32, ∑ i : Fin 128, f i (tileTok 64 (by decide) j))
          + ∑ j : Fin 32, ∑ i : Fin 128, f i (tileTok 96 (by decide) j) := by
  rw [Finset.sum_comm, sum_four_tiles (fun j => ∑ i : Fin 128, f i j), zero_add]

end Cert.Spec

end
-- ==== Proof.KernelPay.lean ====
/-
  The kernel body's stored value, read entry by entry over the extended reals.

  At one grid point the body holds one batch row's gathered embeddings `x` ([1,128,256]), the three weight matrices
  and the three biases as [1,256] rows. Read at an index:
  * a projection (`k0_pay4`, `k0_pay5`) at (i, k) is Σ_d x(0,i,d)·W(k,d) + b(0,k) — the matrix product takes the
    transposed weight, so the contraction runs along the weight's second axis;
  * one tile's total at feature k is Σ_{j<32} Σ_{i<128} max(L(i,k) + R(o+j,k), 0), `o` the tile's first token;
  * the stored row at output feature n is Σ_k (acc(k) / 16384)·Wrel(n,k) + brel(0,n), `acc` the running total of the
    four tiles started at zero.
-/
import proofs.«141220_j70841190580226_1_alg».proof.Proof.Gen.KernelIdeal.Skeleton
import proofs.«141220_j70841190580226_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The two matrix products -/

theorem lhs_dotL_0 (i : S128x256.Idx) (q : dot_S128x256_S256x256_S128x256_1_0_0_1_n_n.contr.Idx) :
    (dot_S128x256_S256x256_S128x256_1_0_0_1_n_n.lhsIdx i q 0).val = (i 0).val := by
  unfold DotDims.lhsIdx
  rw [dif_neg (show ¬(0 : Fin S128x256.rank) ∈ dot_S128x256_S256x256_S128x256_1_0_0_1_n_n.lhsBatch by decide), dif_pos (show (0 : Fin S128x256.rank) ∈ dot_S128x256_S256x256_S128x256_1_0_0_1_n_n.lhsNonContracting by decide)]
  rfl
theorem lhs_dotL_1 (i : S128x256.Idx) (q : dot_S128x256_S256x256_S128x256_1_0_0_1_n_n.contr.Idx) :
    (dot_S128x256_S256x256_S128x256_1_0_0_1_n_n.lhsIdx i q 1).val = (q ⟨0, by decide⟩).val :=
  dot_S128x256_S256x256_S128x256_1_0_0_1_n_n.lhsIdx_val_of_single rfl i q
theorem rhs_dotL_0 (i : S128x256.Idx) (q : dot_S128x256_S256x256_S128x256_1_0_0_1_n_n.contr.Idx) :
    (dot_S128x256_S256x256_S128x256_1_0_0_1_n_n.rhsIdx i q 0).val = (q ⟨0, by decide⟩).val :=
  dot_S128x256_S256x256_S128x256_1_0_0_1_n_n.rhsIdx_val_of_single rfl i q
theorem rhs_dotL_1 (i : S128x256.Idx) (q : dot_S128x256_S256x256_S128x256_1_0_0_1_n_n.contr.Idx) :
    (dot_S128x256_S256x256_S128x256_1_0_0_1_n_n.rhsIdx i q 1).val = (i 1).val := by
  unfold DotDims.rhsIdx
  rw [dif_neg (show ¬(1 : Fin S256x256.rank) ∈ dot_S128x256_S256x256_S128x256_1_0_0_1_n_n.rhsBatch by decide), dif_pos (show (1 : Fin S256x256.rank) ∈ dot_S128x256_S256x256_S128x256_1_0_0_1_n_n.rhsNonContracting by decide)]
  rfl

/-- The [128,256]·[256,256] product into zero, at (i, k): the sum over the contracted axis. -/
theorem matmulL_apply (l : FVec Ideal S128x256 .bf16) (r : FVec Ideal S256x256 .bf16) (i : Fin 128) (k : Fin 256) :
    matmul dot_S128x256_S256x256_S128x256_1_0_0_1_n_n none l r (constant S128x256 .f32 0x00000000#32) (ix2 i k)
      = ∑ d : Fin 256, l (ix2 i d) * r (ix2 d k) := by
  simp only [matmul]
  rw [Ideal.matmul_constant_zero_apply, ← Equiv.sum_comp (contrEquiv1 dot_S128x256_S256x256_S128x256_1_0_0_1_n_n 256 rfl rfl).symm]
  refine Finset.sum_congr rfl fun d _ => ?_
  have hk := contrEquiv1_symm_val dot_S128x256_S256x256_S128x256_1_0_0_1_n_n 256 rfl rfl d
  have el : dot_S128x256_S256x256_S128x256_1_0_0_1_n_n.lhsIdx (ix2 i k) ((contrEquiv1 dot_S128x256_S256x256_S128x256_1_0_0_1_n_n 256 rfl rfl).symm d) = ix2 i d := funext fun a => Fin.ext (by
    match a with
    | ⟨0, _⟩ => exact lhs_dotL_0 _ _
    | ⟨1, _⟩ => exact (lhs_dotL_1 _ _).trans hk)
  have er : dot_S128x256_S256x256_S128x256_1_0_0_1_n_n.rhsIdx (ix2 i k) ((contrEquiv1 dot_S128x256_S256x256_S128x256_1_0_0_1_n_n 256 rfl rfl).symm d) = ix2 d k := funext fun a => Fin.ext (by
    match a with
    | ⟨0, _⟩ => exact (rhs_dotL_0 _ _).trans hk
    | ⟨1, _⟩ => exact rhs_dotL_1 _ _)
  rw [el, er]

theorem lhs_dotP_0 (i : S1x256.Idx) (q : dot_S1x256_S256x256_S1x256_1_0_0_1_n_n.contr.Idx) :
    (dot_S1x256_S256x256_S1x256_1_0_0_1_n_n.lhsIdx i q 0).val = (i 0).val := by
  unfold DotDims.lhsIdx
  rw [dif_neg (show ¬(0 : Fin S1x256.rank) ∈ dot_S1x256_S256x256_S1x256_1_0_0_1_n_n.lhsBatch by decide), dif_pos (show (0 : Fin S1x256.rank) ∈ dot_S1x256_S256x256_S1x256_1_0_0_1_n_n.lhsNonContracting by decide)]
  rfl
theorem lhs_dotP_1 (i : S1x256.Idx) (q : dot_S1x256_S256x256_S1x256_1_0_0_1_n_n.contr.Idx) :
    (dot_S1x256_S256x256_S1x256_1_0_0_1_n_n.lhsIdx i q 1).val = (q ⟨0, by decide⟩).val :=
  dot_S1x256_S256x256_S1x256_1_0_0_1_n_n.lhsIdx_val_of_single rfl i q
theorem rhs_dotP_0 (i : S1x256.Idx) (q : dot_S1x256_S256x256_S1x256_1_0_0_1_n_n.contr.Idx) :
    (dot_S1x256_S256x256_S1x256_1_0_0_1_n_n.rhsIdx i q 0).val = (q ⟨0, by decide⟩).val :=
  dot_S1x256_S256x256_S1x256_1_0_0_1_n_n.rhsIdx_val_of_single rfl i q
theorem rhs_dotP_1 (i : S1x256.Idx) (q : dot_S1x256_S256x256_S1x256_1_0_0_1_n_n.contr.Idx) :
    (dot_S1x256_S256x256_S1x256_1_0_0_1_n_n.rhsIdx i q 1).val = (i 1).val := by
  unfold DotDims.rhsIdx
  rw [dif_neg (show ¬(1 : Fin S256x256.rank) ∈ dot_S1x256_S256x256_S1x256_1_0_0_1_n_n.rhsBatch by decide), dif_pos (show (1 : Fin S256x256.rank) ∈ dot_S1x256_S256x256_S1x256_1_0_0_1_n_n.rhsNonContracting by decide)]
  rfl

/-- The [1,256]·[256,256] product into zero, at (0, n). -/
theorem matmulP_apply (l : FVec Ideal S1x256 .bf16) (r : FVec Ideal S256x256 .bf16) (n : Fin 256) :
    matmul dot_S1x256_S256x256_S1x256_1_0_0_1_n_n none l r (constant S1x256 .f32 0x00000000#32) (ix2 (0 : Fin 1) n)
      = ∑ k : Fin 256, l (ix2 (0 : Fin 1) k) * r (ix2 k n) := by
  simp only [matmul]
  rw [Ideal.matmul_constant_zero_apply, ← Equiv.sum_comp (contrEquiv1 dot_S1x256_S256x256_S1x256_1_0_0_1_n_n 256 rfl rfl).symm]
  refine Finset.sum_congr rfl fun d _ => ?_
  have hk := contrEquiv1_symm_val dot_S1x256_S256x256_S1x256_1_0_0_1_n_n 256 rfl rfl d
  have el : dot_S1x256_S256x256_S1x256_1_0_0_1_n_n.lhsIdx (ix2 (0 : Fin 1) n) ((contrEquiv1 dot_S1x256_S256x256_S1x256_1_0_0_1_n_n 256 rfl rfl).symm d) = ix2 (0 : Fin 1) d := funext fun a => Fin.ext (by
    match a with
    | ⟨0, _⟩ => exact lhs_dotP_0 _ _
    | ⟨1, _⟩ => exact (lhs_dotP_1 _ _).trans hk)
  have er : dot_S1x256_S256x256_S1x256_1_0_0_1_n_n.rhsIdx (ix2 (0 : Fin 1) n) ((contrEquiv1 dot_S1x256_S256x256_S1x256_1_0_0_1_n_n 256 rfl rfl).symm d) = ix2 d n := funext fun a => Fin.ext (by
    match a with
    | ⟨0, _⟩ => exact (rhs_dotP_0 _ _).trans hk
    | ⟨1, _⟩ => exact rhs_dotP_1 _ _)
  rw [el, er]

/-- A transposed weight at (d, k) is the weight at (k, d). -/
theorem transposeW_apply (W : FVec Ideal S256x256 .bf16) (d k : Fin 256) :
    transpose S256x256 [1, 0] W transposes_S256x256_p1_0_S256x256 (ix2 d k) = W (ix2 k d) :=
  transpose_apply [1, 0] W transposes_S256x256_p1_0_S256x256 (ix2 d k) (ix2 k d) (fun b => match b with
    | ⟨0, _⟩ => rfl
    | ⟨1, _⟩ => rfl)

/-! ## A projection at an index -/

/-- A projection of the row's tokens at (i, k): Σ_d x(0,i,d)·W(k,d) + b(0,k). -/
theorem proj_apply (x : Vec Ideal S1x128x256 .f32) (W : Vec Ideal S256x256 .f32) (b : Vec Ideal S1x256 .f32)
    (i : Fin 128) (k : Fin 256) :
    k0_pay4 (F := Ideal) x W b (ix2 i k)
      = (∑ d : Fin 256, x (ix3 (0 : Fin 1) i d) * W (ix2 k d)) + b (ix2 (0 : Fin 1) k) := by
  unfold k0_pay4 k0_pay2
  refine (addf_apply _ _ _).trans ?_
  refine congrArg₂ (· + ·) ?_ ?_
  · refine (matmulL_apply _ _ i k).trans ?_
    refine Finset.sum_congr rfl fun d _ => ?_
    refine congrArg₂ (· * ·) ?_ ?_
    · show shapeCast S128x256 x shapeCasts_S1x128x256_S128x256 (ix2 i d) = _
      exact shapeCast_apply x shapeCasts_S1x128x256_S128x256 (ix2 i d) (ix3 (0 : Fin 1) i d) (by
        rw [Shape.rowMajor_val_two, Shape.rowMajor_val_three]
        show ((0 : Nat) * 128 + i.val) * 256 + d.val = i.val * 256 + d.val
        omega)
    · exact (transposeW_apply _ d k).trans rfl
  · refine (broadcastTo_apply _ broadcasts_S1x256_S128x256 (ix2 i k) (ix2 (0 : Fin 1) k) (fun a => match a with
      | ⟨0, _⟩ => rfl
      | ⟨1, _⟩ => rfl)).trans ?_
    exact congrFun (shapeCast_self b shapeCasts_S1x256_S1x256) _

/-- The second projection is the same function of its own weight and bias. -/
theorem proj5_eq (x : Vec Ideal S1x128x256 .f32) (W : Vec Ideal S256x256 .f32) (b : Vec Ideal S1x256 .f32) :
    k0_pay5 (F := Ideal) x W b = k0_pay4 (F := Ideal) x W b := rfl

/-! ## One tile of pairs -/

variable {F : FTy → Type} [FloatOps F]

/-- L(i,·) + R(o+j,·) laid out [128, 32, 256]: the first projection repeated along the tile axis, the tile's 32 rows
    of the second repeated along the token axis. -/
def pre (o : Nat) (hs : S128x256.Slices ![o, 0] S32x256) (L R : FVec F S128x256 .f32) : FVec F S128x32x256 .f32 :=
  addf (broadcastTo S128x32x256 (shapeCast S128x1x256 L shapeCasts_S128x256_S128x1x256) broadcasts_S128x1x256_S128x32x256)
    (broadcastTo S128x32x256 (shapeCast S1x32x256 (extractStridedSlice S32x256 ![o, 0] R hs) shapeCasts_S32x256_S1x32x256) broadcasts_S1x32x256_S128x32x256)

/-- Rectify, then sum over the first token axis, then over the tile's 32 second tokens; a [1,256] row. -/
def tileOf (P : FVec F S128x32x256 .f32) : FVec F S1x256 .f32 :=
  shapeCast S1x256 (multiReduction .add [0] S256 (multiReduction .add [0] S32x256
    (maximumf P (broadcast S128x32x256 (Scalar.ofBits .f32 0x00000000#32))) 0x00000000#32 reduces_S128x32x256_S32x256 (.inl rfl) rfl)
    0x00000000#32 reduces_S32x256_S256 (.inl rfl) rfl) shapeCasts_S256_S1x256

theorem pre_apply (o : Nat) (ho : o ≤ 96) (hs : S128x256.Slices ![o, 0] S32x256) (L R : FVec Ideal S128x256 .f32)
    (i : Fin 128) (j : Fin 32) (k : Fin 256) :
    pre o hs L R (ix3 i j k) = L (ix2 i k) + R (ix2 (Cert.Spec.tileTok o ho j) k) := by
  unfold pre
  refine (addf_apply _ _ _).trans ?_
  refine congrArg₂ (· + ·) ?_ ?_
  · refine (broadcastTo_apply _ broadcasts_S128x1x256_S128x32x256 (ix3 i j k) (ix3 i (0 : Fin 1) k) (fun a => match a with
      | ⟨0, _⟩ => rfl
      | ⟨1, _⟩ => rfl
      | ⟨2, _⟩ => rfl)).trans ?_
    exact shapeCast_apply L shapeCasts_S128x256_S128x1x256 (ix3 i (0 : Fin 1) k) (ix2 i k) (by
      rw [Shape.rowMajor_val_two, Shape.rowMajor_val_three]
      show i.val * 256 + k.val = (i.val * 1 + 0) * 256 + k.val
      omega)
  · refine (broadcastTo_apply _ broadcasts_S1x32x256_S128x32x256 (ix3 i j k) (ix3 (0 : Fin 1) j k) (fun a => match a with
      | ⟨0, _⟩ => rfl
      | ⟨1, _⟩ => rfl
      | ⟨2, _⟩ => rfl)).trans ?_
    refine (shapeCast_apply _ shapeCasts_S32x256_S1x32x256 (ix3 (0 : Fin 1) j k) (ix2 j k) (by
      rw [Shape.rowMajor_val_two, Shape.rowMajor_val_three]
      show j.val * 256 + k.val = (0 * 32 + j.val) * 256 + k.val
      omega)).trans ?_
    exact extractStridedSlice_apply ![o, 0] R hs (ix2 j k) (ix2 (Cert.Spec.tileTok o ho j) k) (fun a => match a with
      | ⟨0, _⟩ => rfl
      | ⟨1, _⟩ => by show k.val = 0 + k.val; omega)

theorem tileOf_apply (P : FVec Ideal S128x32x256 .f32) (k : Fin 256) :
    tileOf P (ix2 (0 : Fin 1) k) = ∑ j : Fin 32, ∑ i : Fin 128, max (P (ix3 i j k)) 0 := by
  unfold tileOf
  refine (shapeCast_apply _ shapeCasts_S256_S1x256 (ix2 (0 : Fin 1) k) (ix1 k) (by
    rw [Shape.rowMajor_val_one, Shape.rowMajor_val_two]
    show k.val = 0 * 256 + k.val
    omega)).trans ?_
  refine (Ideal.multiReduction_add_single _ 0x00000000#32 reduces_S32x256_S256 (.inl rfl) rfl (ix1 k)).trans ?_
  refine Finset.sum_congr rfl fun j _ => ?_
  have e : reduces_S32x256_S256.lift (ix1 k) j = ix2 j k := funext fun a => Fin.ext (by
    match a with
    | ⟨0, _⟩ => rfl
    | ⟨1, _⟩ => rfl)
  refine (congrArg _ e).trans ?_
  refine (Ideal.multiReduction_add_single _ 0x00000000#32 reduces_S128x32x256_S32x256 (.inl rfl) rfl (ix2 j k)).trans ?_
  refine Finset.sum_congr rfl fun i _ => ?_
  have e2 : reduces_S128x32x256_S32x256.lift (ix2 j k) i = ix3 i j k := funext fun a => Fin.ext (by
    match a with
    | ⟨0, _⟩ => rfl
    | ⟨1, _⟩ => rfl
    | ⟨2, _⟩ => rfl)
  refine (congrArg _ e2).trans ?_
  show max (P (ix3 i j k)) (Ideal.ofBits .f32 0x00000000#32) = _
  rw [Ideal.ofBits_zero_f32]

/-- One tile's total at feature k: Σ_{j<32} Σ_{i<128} max(L(i,k) + R(o+j,k), 0). -/
theorem tile_apply (o : Nat) (ho : o ≤ 96) (hs : S128x256.Slices ![o, 0] S32x256) (L R : FVec Ideal S128x256 .f32) (k : Fin 256) :
    tileOf (pre o hs L R) (ix2 (0 : Fin 1) k)
      = ∑ j : Fin 32, ∑ i : Fin 128, max (L (ix2 i k) + R (ix2 (Cert.Spec.tileTok o ho j) k)) 0 := by
  refine (tileOf_apply _ k).trans ?_
  refine Finset.sum_congr rfl fun j _ => Finset.sum_congr rfl fun i _ => ?_
  rw [pre_apply o ho hs L R i j k]

/-! ## The stored row -/

/-- The running total after the first tile, and the second tile's pair sums before they are rectified, as the
    body's two carried values are printed. -/
theorem acc0_eq (x : Vec F S1x128x256 .f32) (Wl Wr : Vec F S256x256 .f32) (bl br : Vec F S1x256 .f32) :
    k0_pay6 x Wl Wr bl br
      = addf (broadcast S1x256 (Scalar.ofBits .f32 0x00000000#32))
          (tileOf (pre 0 slices_S128x256_o0_0_S32x256 (k0_pay4 x Wl bl) (k0_pay5 x Wr br))) := rfl
theorem pre1_eq (x : Vec F S1x128x256 .f32) (Wl Wr : Vec F S256x256 .f32) (bl br : Vec F S1x256 .f32) :
    k0_pay7 x Wl Wr bl br = pre 32 slices_S128x256_o32_0_S32x256 (k0_pay4 x Wl bl) (k0_pay5 x Wr br) := rfl

/-- The stored value as one expression of the projections, the first running total and the second tile's sums. -/
theorem stored_eq (Wrel : Vec F S256x256 .f32) (L R : FVec F S128x256 .f32) (a0 : FVec F S1x256 .f32)
    (P1 : FVec F S128x32x256 .f32) (brel : Vec F S1x256 .f32) :
    k0_pay1 (k0_pay3 Wrel) L R a0 P1 brel
      = shapeCast S1x1x256 (addf
          (matmul dot_S1x256_S256x256_S1x256_1_0_0_1_n_n none
            (truncf .bf16 (divf (addf (addf (addf a0 (tileOf P1)) (tileOf (pre 64 slices_S128x256_o64_0_S32x256 L R)))
                (tileOf (pre 96 slices_S128x256_o96_0_S32x256 L R)))
              (broadcast S1x256 (Scalar.ofBits .f32 0x46800000#32))) bitsLt_bf16_f32)
            (transpose S256x256 [1, 0] (truncf .bf16 Wrel bitsLt_bf16_f32) transposes_S256x256_p1_0_S256x256)
            (constant S1x256 .f32 0x00000000#32))
          (shapeCast S1x256 brel shapeCasts_S1x256_S1x256)) shapeCasts_S1x256_S1x1x256 := rfl

/-- The pair value at the block's row, from the two projections read at an index. -/
def pairK (x : Vec Ideal S1x128x256 .f32) (Wl Wr : Vec Ideal S256x256 .f32) (bl br : Vec Ideal S1x256 .f32)
    (k : Fin 256) (i j : Fin 128) : EReal :=
  max (k0_pay4 (F := Ideal) x Wl bl (ix2 i k) + k0_pay4 (F := Ideal) x Wr br (ix2 j k)) 0

/-- The stored row at output feature n: Σ_k (acc(k) / 16384)·Wrel(n,k) + brel(0,n), `acc` the running total of
    the four tiles from zero. -/
theorem stored_apply (x : Vec Ideal S1x128x256 .f32) (Wl Wr Wrel : Vec Ideal S256x256 .f32) (bl br brel : Vec Ideal S1x256 .f32)
    (n : Fin 256) :
    k0_pay1 (F := Ideal) (k0_pay3 Wrel) (k0_pay4 x Wl bl) (k0_pay5 x Wr br) (k0_pay6 x Wl Wr bl br) (k0_pay7 x Wl Wr bl br) brel
        (ix3 (0 : Fin 1) (0 : Fin 1) n)
      = (∑ k : Fin 256, Ideal.div
            ((((0 + ∑ j : Fin 32, ∑ i : Fin 128, pairK x Wl Wr bl br k i (Cert.Spec.tileTok 0 (by decide) j))
              + ∑ j : Fin 32, ∑ i : Fin 128, pairK x Wl Wr bl br k i (Cert.Spec.tileTok 32 (by decide) j))
              + ∑ j : Fin 32, ∑ i : Fin 128, pairK x Wl Wr bl br k i (Cert.Spec.tileTok 64 (by decide) j))
              + ∑ j : Fin 32, ∑ i : Fin 128, pairK x Wl Wr bl br k i (Cert.Spec.tileTok 96 (by decide) j))
            Cert.Spec.pairCount * Wrel (ix2 n k))
        + brel (ix2 (0 : Fin 1) n) := by
  rw [stored_eq, acc0_eq, pre1_eq, proj5_eq]
  refine (shapeCast_apply _ shapeCasts_S1x256_S1x1x256 (ix3 (0 : Fin 1) (0 : Fin 1) n) (ix2 (0 : Fin 1) n) (by
    rw [Shape.rowMajor_val_two, Shape.rowMajor_val_three]
    show 0 * 256 + n.val = (0 * 1 + 0) * 256 + n.val
    omega)).trans ?_
  refine (addf_apply _ _ _).trans ?_
  refine congrArg₂ (· + ·) ?_ (congrFun (shapeCast_self brel shapeCasts_S1x256_S1x256) _)
  refine (matmulP_apply _ _ n).trans ?_
  refine Finset.sum_congr rfl fun k _ => ?_
  refine congrArg₂ (· * ·) ?_ ((transposeW_apply _ k n).trans rfl)
  show Ideal.div (_ + _ + _ + _) (Ideal.ofBits .f32 0x46800000#32) = _
  refine congrArg (Ideal.div · Cert.Spec.pairCount) ?_
  refine congrArg₂ (· + ·) (congrArg₂ (· + ·) (congrArg₂ (· + ·) ?_ ?_) ?_) ?_
  · show Ideal.ofBits .f32 0x00000000#32 + _ = _
    rw [Ideal.ofBits_zero_f32]
    exact congrArg (0 + ·) (tile_apply 0 (by decide) _ _ _ k)
  · exact tile_apply 32 (by decide) _ _ _ k
  · exact tile_apply 64 (by decide) _ _ _ k
  · exact tile_apply 96 (by decide) _ _ _ k

end Cert.KernelIdeal.Pay

end
-- ==== Proof.KernelValue.lean ====
/-
  What the kernel program leaves in its result, read entry by entry, is the specification.

  Grid point `t` holds batch row `t`: its block of the gathered embeddings is row `t` of that array, the weight and
  bias windows are the whole arrays at every point, and the [1,1,256] block it writes back is row `t` of the [16,1,256]
  output. So the output array ends as `Spec.out` at (row, feature), and the final reshape to [16,256] reads it there.
-/
import proofs.«141220_j70841190580226_1_alg».proof.Proof.Gen.KernelIdeal.Frame
import proofs.«141220_j70841190580226_1_alg».proof.Proof.KernelPay
import proofs.«141220_j70841190580226_1_alg».proof.Proof.Spec
import Idealize.ShloMosaic.Lib.Pipeline.Value
import Idealize.ShloMosaic.Lib.StableHlo.Run
import Idealize.ShloMosaic.Lib.Tactic

noncomputable section

open scoped BigOperators

namespace Cert.KernelIdeal.KValue

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat)

/-! ## The stored row is the specification's row -/

/-- The pair value the body forms from its blocks is the specification's, when the embedding block is row `s` of
    the gathered array and the bias rows are the bias vectors. -/
theorem pairK_eq (x : Vec Ideal S1x128x256 .f32) (Wl Wr : Vec Ideal S256x256 .f32) (bl br : Vec Ideal S1x256 .f32)
    (E : Cert.Spec.Emb) (bL bR : Cert.Spec.Bias) (s : Fin 16)
    (hx : ∀ i d, x (ix3 (0 : Fin 1) i d) = E (ix3 s i d))
    (hl : ∀ k, bl (ix2 (0 : Fin 1) k) = bL (ix1 k)) (hr : ∀ k, br (ix2 (0 : Fin 1) k) = bR (ix1 k))
    (k : Fin 256) (i j : Fin 128) :
    pairK x Wl Wr bl br k i j = Cert.Spec.pair E Wl bL Wr bR s k i j := by
  unfold pairK Cert.Spec.pair Cert.Spec.proj
  rw [proj_apply, proj_apply, hl, hr]
  simp only [hx]

/-- The stored row at feature n is the specification's result at (s, n): the running total over the four tiles is the
    double sum over all pairs. -/
theorem stored_out (x : Vec Ideal S1x128x256 .f32) (Wl Wr Wrel : Vec Ideal S256x256 .f32) (bl br brel : Vec Ideal S1x256 .f32)
    (E : Cert.Spec.Emb) (bL bR bO : Cert.Spec.Bias) (s : Fin 16)
    (hx : ∀ i d, x (ix3 (0 : Fin 1) i d) = E (ix3 s i d))
    (hl : ∀ k, bl (ix2 (0 : Fin 1) k) = bL (ix1 k)) (hr : ∀ k, br (ix2 (0 : Fin 1) k) = bR (ix1 k))
    (ho : ∀ k, brel (ix2 (0 : Fin 1) k) = bO (ix1 k)) (n : Fin 256) :
    k0_pay1 (F := Ideal) (k0_pay3 Wrel) (k0_pay4 x Wl bl) (k0_pay5 x Wr br) (k0_pay6 x Wl Wr bl br) (k0_pay7 x Wl Wr bl br) brel
        (ix3 (0 : Fin 1) (0 : Fin 1) n)
      = Cert.Spec.out E Wl bL Wr bR Wrel bO s n := by
  rw [stored_apply]
  unfold Cert.Spec.out Cert.Spec.pooled
  rw [ho]
  refine congrArg (· + bO (ix1 n)) (Finset.sum_congr rfl fun k _ => ?_)
  refine congrArg (fun a => Ideal.div a Cert.Spec.pairCount * Wrel (ix2 n k)) ?_
  refine Eq.trans ?_ (Cert.Spec.pairs_by_tiles (fun i j => Cert.Spec.pair E Wl bL Wr bR s k i j)).symm
  simp only [pairK_eq x Wl Wr bl br E bL bR s hx hl hr]

/-- The same at any index of the [1,1,256] block. -/
theorem stored_out_idx (x : Vec Ideal S1x128x256 .f32) (Wl Wr Wrel : Vec Ideal S256x256 .f32) (bl br brel : Vec Ideal S1x256 .f32)
    (E : Cert.Spec.Emb) (bL bR bO : Cert.Spec.Bias) (s : Fin 16)
    (hx : ∀ i d, x (ix3 (0 : Fin 1) i d) = E (ix3 s i d))
    (hl : ∀ k, bl (ix2 (0 : Fin 1) k) = bL (ix1 k)) (hr : ∀ k, br (ix2 (0 : Fin 1) k) = bR (ix1 k))
    (ho : ∀ k, brel (ix2 (0 : Fin 1) k) = bO (ix1 k)) (y : S1x1x256.Idx) :
    k0_pay1 (F := Ideal) (k0_pay3 Wrel) (k0_pay4 x Wl bl) (k0_pay5 x Wr br) (k0_pay6 x Wl Wr bl br) (k0_pay7 x Wl Wr bl br) brel y
      = Cert.Spec.out E Wl bL Wr bR Wrel bO s (y 2) := by
  obtain ⟨a, b, n, rfl⟩ : ∃ (a : Fin 1) (b : Fin 1) (n : Fin 256), y = ix3 a b n := ⟨y 0, y 1, y 2, eq_ix3 y⟩
  obtain rfl : a = 0 := Subsingleton.elim _ _
  obtain rfl : b = 0 := Subsingleton.elim _ _
  exact stored_out x Wl Wr Wrel bl br brel E bL bR bO s hx hl hr ho n

/-! ## The windows' blocks at a grid point -/

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the embedding window and the output window move with the point
    along the batch axis; every other window stays at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val ∧ win0_7.index t (1 : Fin 3) = 0 ∧ win0_7.index t (2 : Fin 3) = 0 :=
  (by decide +kernel : ∀ t : Fin grid0.N, _)

/-- The batch row a grid point works on. -/
def rowOf (t : Fin cfg0.N) : Fin 16 := ⟨t.val, by have h := t.isLt; have hN : cfg0.N = 16 := N_0; omega⟩

/-- The embedding block at point `t` is batch row `t` of the gathered array. -/
theorem blk0_apply (c : Dev nD) (t : Fin cfg0.N) (i : Fin 128) (d : Fin 256) :
    (iblk m c 0 t : Vec Ideal S1x128x256 .f32) (ix3 (0 : Fin 1) i d)
      = (V m c main_v6 : S16x128x256.Idx → EReal) (ix3 (rowOf t) i d) := by
  obtain ⟨e0, e1, e2, -⟩ := idx_facts t
  unfold iblk
  rw [View.read_apply]
  show V m c main_v6 _ = V m c main_v6 _
  congr 1
  funext a
  apply Fin.ext
  match a with
  | ⟨0, _⟩ => show win0_0.index t 0 * 1 + 1 * 0 = t.val; rw [e0]; omega
  | ⟨1, _⟩ => show win0_0.index t 1 * 128 + 1 * i.val = i.val; rw [e1]; omega
  | ⟨2, _⟩ => show win0_0.index t 2 * 256 + 1 * d.val = d.val; rw [e2]; omega

/-- A weight window's block is the whole weight at every point. -/
theorem blk1_eq (c : Dev nD) (t : Fin cfg0.N) : (iblk m c 1 t : Vec Ideal S256x256 .f32) = V m c main_arg2 := by
  obtain ⟨-, -, -, e0, e1, -⟩ := idx_facts t
  funext y
  unfold iblk
  rw [View.read_apply]
  show V m c main_arg2 _ = V m c main_arg2 _
  congr 1
  funext a
  apply Fin.ext
  match a with
  | ⟨0, _⟩ => show win0_1.index t 0 * 256 + 1 * (y 0).val = (y 0).val; rw [e0]; omega
  | ⟨1, _⟩ => show win0_1.index t 1 * 256 + 1 * (y 1).val = (y 1).val; rw [e1]; omega
theorem blk3_eq (c : Dev nD) (t : Fin cfg0.N) : (iblk m c 3 t : Vec Ideal S256x256 .f32) = V m c main_arg4 := by
  obtain ⟨-, -, -, -, -, -, -, e0, e1, -⟩ := idx_facts t
  funext y
  unfold iblk
  rw [View.read_apply]
  show V m c main_arg4 _ = V m c main_arg4 _
  congr 1
  funext a
  apply Fin.ext
  match a with
  | ⟨0, _⟩ => show win0_3.index t 0 * 256 + 1 * (y 0).val = (y 0).val; rw [e0]; omega
  | ⟨1, _⟩ => show win0_3.index t 1 * 256 + 1 * (y 1).val = (y 1).val; rw [e1]; omega
theorem blk5_eq (c : Dev nD) (t : Fin cfg0.N) : (iblk m c 5 t : Vec Ideal S256x256 .f32) = V m c main_arg6 := by
  obtain ⟨-, -, -, -, -, -, -, -, -, -, -, e0, e1, -⟩ := idx_facts t
  funext y
  unfold iblk
  rw [View.read_apply]
  show V m c main_arg6 _ = V m c main_arg6 _
  congr 1
  funext a
  apply Fin.ext
  match a with
  | ⟨0, _⟩ => show win0_5.index t 0 * 256 + 1 * (y 0).val = (y 0).val; rw [e0]; omega
  | ⟨1, _⟩ => show win0_5.index t 1 * 256 + 1 * (y 1).val = (y 1).val; rw [e1]; omega

/-- A bias window's block is the whole [1,256] row at every point. -/
theorem blk2_eq (c : Dev nD) (t : Fin cfg0.N) : (iblk m c 2 t : Vec Ideal S1x256 .f32) = V m c main_v7 := by
  obtain ⟨-, -, -, -, -, e0, e1, -⟩ := idx_facts t
  funext y
  unfold iblk
  rw [View.read_apply]
  show V m c main_v7 _ = V m c main_v7 _
  congr 1
  funext a
  apply Fin.ext
  match a with
  | ⟨0, _⟩ => show win0_2.index t 0 * 1 + 1 * (y 0).val = (y 0).val; rw [e0]; omega
  | ⟨1, _⟩ => show win0_2.index t 1 * 256 + 1 * (y 1).val = (y 1).val; rw [e1]; omega
theorem blk4_eq (c : Dev nD) (t : Fin cfg0.N) : (iblk m c 4 t : Vec Ideal S1x256 .f32) = V m c main_v8 := by
  obtain ⟨-, -, -, -, -, -, -, -, -, e0, e1, -⟩ := idx_facts t
  funext y
  unfold iblk
  rw [View.read_apply]
  show V m c main_v8 _ = V m c main_v8 _
  congr 1
  funext a
  apply Fin.ext
  match a with
  | ⟨0, _⟩ => show win0_4.index t 0 * 1 + 1 * (y 0).val = (y 0).val; rw [e0]; omega
  | ⟨1, _⟩ => show win0_4.index t 1 * 256 + 1 * (y 1).val = (y 1).val; rw [e1]; omega
theorem blk6_eq (c : Dev nD) (t : Fin cfg0.N) : (iblk m c 6 t : Vec Ideal S1x256 .f32) = V m c main_v9 := by
  obtain ⟨-, -, -, -, -, -, -, -, -, -, -, -, -, e0, e1, -⟩ := idx_facts t
  funext y
  unfold iblk
  rw [View.read_apply]
  show V m c main_v9 _ = V m c main_v9 _
  congr 1
  funext a
  apply Fin.ext
  match a with
  | ⟨0, _⟩ => show win0_6.index t 0 * 1 + 1 * (y 0).val = (y 0).val; rw [e0]; omega
  | ⟨1, _⟩ => show win0_6.index t 1 * 256 + 1 * (y 1).val = (y 1).val; rw [e1]; omega

/-! ## The bias rows the host reshapes before the region -/

/-- A [256] vector reshaped to [1,256], read at (0, k), is the vector at k. -/
theorem row_apply (b : S256.Idx → EReal) (k : Fin 256) :
    shapeCast S1x256 b shapeCasts_S256_S1x256 (ix2 (0 : Fin 1) k) = b (ix1 k) :=
  shapeCast_apply b shapeCasts_S256_S1x256 (ix2 (0 : Fin 1) k) (ix1 k) (by
    rw [Shape.rowMajor_val_one, Shape.rowMajor_val_two]
    show k.val = 0 * 256 + k.val
    omega)

theorem V_v7 (c : Dev nD) : (V m c main_v7 : S1x256.Idx → EReal)
    = shapeCast S1x256 (m ((c : Thread nD τ).loc main_arg3)) shapeCasts_S256_S1x256 := by
  show StableHlo.after hostOps0 (fun b => m (c, b)) (Proc.devRef .tc main_v7) = _
  after_results
  rfl
theorem V_v8 (c : Dev nD) : (V m c main_v8 : S1x256.Idx → EReal)
    = shapeCast S1x256 (m ((c : Thread nD τ).loc main_arg5)) shapeCasts_S256_S1x256 := by
  show StableHlo.after hostOps0 (fun b => m (c, b)) (Proc.devRef .tc main_v8) = _
  after_results
  rfl
theorem V_v9 (c : Dev nD) : (V m c main_v9 : S1x256.Idx → EReal)
    = shapeCast S1x256 (m ((c : Thread nD τ).loc main_arg7)) shapeCasts_S256_S1x256 := by
  show StableHlo.after hostOps0 (fun b => m (c, b)) (Proc.devRef .tc main_v9) = _
  after_results
  rfl

/-- The embedding rows the host gathers before the region: the table's rows at the token ids, a negative id first
    moved up by the table's length. -/
def gathered (X : S16x128.Idx → BitVec 32) (emb : S32000x256.Idx → EReal) : S16x128x256.Idx → EReal :=
  Host.gather gather_S32000x256_S16x128x1_S16x128x256_2_0_n_n_0_2_1256 emb
    (broadcastInDim S16x128x1 ![0, 1] bcast_S16x128_S16x128x1_0_1
      (select (cmpi .slt X (broadcastInDim S16x128 ![] bcast_S_S16x128 (constantI S_ 32 0#32)))
        (addi X (broadcastInDim S16x128 ![] bcast_S_S16x128 (constantI S_ 32 32000#32))) X))

theorem V_v6 (c : Dev nD) : (V m c main_v6 : S16x128x256.Idx → EReal)
    = gathered (m ((c : Thread nD τ).loc main_arg0)) (m ((c : Thread nD τ).loc main_arg1)) := by
  show StableHlo.after hostOps0 (fun b => m (c, b)) (Proc.devRef .tc main_v6) = _
  after_results
  unfold gathered
  rfl

/-! ## The output array after the run -/

/-- The [16,1,256] output array: the specification at (row, feature), of the gathered rows and the float arguments. -/
def outArr (c : Dev nD) : S16x1x256.Idx → EReal := fun i =>
  Cert.Spec.out (gathered (m ((c : Thread nD τ).loc main_arg0)) (m ((c : Thread nD τ).loc main_arg1)))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7)) (i 0) (i 2)

/-- What point `t` writes back is row `t` of `outArr`. -/
theorem flushed_eq (c : Dev nD) (t : Fin cfg0.N) :
    (dats m 0 c).flushed 7 t = ((cfg0.win 7).blk t).view.read (Elt Ideal) (outArr m c) := by
  show (cfg0.win 7).cut (grid0.coords t) ((dats m 0 c).after 7 t) = _
  rw [after0_7]
  unfold out0_7
  rw [View.canon_unit_zero hz3]
  simp only [View.ld_unit_zero (S := S1x128x256) hz3, View.ld_unit_zero (S := S256x256) hz2, View.ld_unit_zero (S := S1x256) hz2]
  rw [blk1_eq m c t, blk3_eq m c t, blk5_eq m c t, blk2_eq m c t, blk4_eq m c t, blk6_eq m c t,
    V_main_arg2 m c, V_main_arg4 m c, V_main_arg6 m c]
  obtain ⟨-, -, -, -, -, -, -, -, -, -, -, -, -, -, -, e0, e1, e2⟩ := idx_facts t
  funext y
  have hy0 : (y 0).val < 1 := (y 0).isLt
  have h0 : (((cfg0.win 7).blk t).view.emb y) 0 = rowOf t := Fin.ext (by
    show win0_7.index t 0 * 1 + 1 * (y 0).val = t.val
    rw [e0]; omega)
  have h2 : (((cfg0.win 7).blk t).view.emb y) 2 = y 2 := Fin.ext (by
    show win0_7.index t 2 * 256 + 1 * (y 2).val = (y 2).val
    rw [e2]; omega)
  show k0_pay1 (F := Ideal) (k0_pay3 (m ((c : Thread nD τ).loc main_arg6)))
      (k0_pay4 (iblk m c 0 t) (m ((c : Thread nD τ).loc main_arg2)) (V m c main_v7))
      (k0_pay5 (iblk m c 0 t) (m ((c : Thread nD τ).loc main_arg4)) (V m c main_v8))
      (k0_pay6 (iblk m c 0 t) (m ((c : Thread nD τ).loc main_arg2)) (m ((c : Thread nD τ).loc main_arg4)) (V m c main_v7) (V m c main_v8))
      (k0_pay7 (iblk m c 0 t) (m ((c : Thread nD τ).loc main_arg2)) (m ((c : Thread nD τ).loc main_arg4)) (V m c main_v7) (V m c main_v8))
      (V m c main_v9) y
    = Cert.Spec.out (gathered (m ((c : Thread nD τ).loc main_arg0)) (m ((c : Thread nD τ).loc main_arg1)))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        ((((cfg0.win 7).blk t).view.emb y) 0) ((((cfg0.win 7).blk t).view.emb y) 2)
  rw [h0, h2]
  exact stored_out_idx (iblk m c 0 t) (m ((c : Thread nD τ).loc main_arg2)) (m ((c : Thread nD τ).loc main_arg4))
    (m ((c : Thread nD τ).loc main_arg6)) (V m c main_v7) (V m c main_v8) (V m c main_v9)
    (gathered (m ((c : Thread nD τ).loc main_arg0)) (m ((c : Thread nD τ).loc main_arg1)))
    (m ((c : Thread nD τ).loc main_arg3)) (m ((c : Thread nD τ).loc main_arg5)) (m ((c : Thread nD τ).loc main_arg7)) (rowOf t)
    (fun i d => (blk0_apply m c t i d).trans (congrFun (V_v6 m c) _))
    (fun k => (congrFun (V_v7 m c) _).trans (row_apply _ k))
    (fun k => (congrFun (V_v8 m c) _).trans (row_apply _ k))
    (fun k => (congrFun (V_v9 m c) _).trans (row_apply _ k)) y

/-- An index of the output array is in point `t`'s block iff each coordinate is in the block's range on its axis. -/
theorem mem_blk (t : Fin cfg0.N) (i : S16x1x256.Idx) :
    i ∈ ((cfg0.win 7).blk t).view.set ↔ ∀ a : Fin 3, win0_7.index t a * S1x1x256.size a ≤ (i a).val
      ∧ (i a).val < win0_7.index t a * S1x1x256.size a + S1x1x256.size a := by
  show i ∈ ((View.whole main_v10).slice (win0_7.rect t)).set ↔ _
  rw [View.set_slice_whole, Rect.mem_set_unit]
  exact Iff.rfl

/-- Row s of the output array is written back by point s. -/
theorem cover (i : S16x1x256.Idx) :
    ∃ t : Fin cfg0.N, (cfg0.win 7).flush t = true ∧ i ∈ ((cfg0.win 7).blk t).view.set := by
  have hi0 : (i 0).val < 16 := (i 0).isLt
  have hi1 : (i 1).val < 1 := (i 1).isLt
  have hi2 : (i 2).val < 256 := (i 2).isLt
  have hN : cfg0.N = 16 := N_0
  obtain ⟨t, ht⟩ : ∃ t : Fin cfg0.N, t.val = (i 0).val := ⟨⟨(i 0).val, by omega⟩, rfl⟩
  obtain ⟨-, -, -, -, -, -, -, -, -, -, -, -, -, -, -, e0, e1, e2⟩ := idx_facts t
  refine ⟨t, flush0_7 t, ?_⟩
  rw [mem_blk]
  intro a
  match a with
  | ⟨0, _⟩ => show win0_7.index t 0 * 1 ≤ (i 0).val ∧ (i 0).val < win0_7.index t 0 * 1 + 1; rw [e0]; omega
  | ⟨1, _⟩ => show win0_7.index t 1 * 1 ≤ (i 1).val ∧ (i 1).val < win0_7.index t 1 * 1 + 1; rw [e1]; omega
  | ⟨2, _⟩ => show win0_7.index t 2 * 256 ≤ (i 2).val ∧ (i 2).val < win0_7.index t 2 * 256 + 256; rw [e2]; omega

/-- The output array after the run. -/
theorem final (c : Dev nD) : (dats m 0 c).arrAt 7 cfg0.N = outArr m c :=
  (dats m 0 c).arrAt_eq_of_cover 7 (outArr m c) (fun t _ => flushed_eq m c t) cover

/-! ## The result after the final reshape -/

/-- The program's result: the specification's [16,256] array. -/
def resultArr (c : Dev nD) : S16x256.Idx → EReal :=
  Cert.Spec.result (gathered (m ((c : Thread nD τ).loc main_arg0)) (m ((c : Thread nD τ).loc main_arg1)))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))

/-- The [16,1,256] output reshaped to [16,256] reads (s, n) at (s, 0, n). -/
theorem reshape_out (c : Dev nD) : shapeCast S16x256 (outArr m c) shapeCasts_S16x1x256_S16x256 = resultArr m c := by
  funext i
  obtain ⟨s, n, rfl⟩ : ∃ (s : Fin 16) (n : Fin 256), i = ix2 s n := ⟨i 0, i 1, eq_ix2 i⟩
  exact shapeCast_apply (outArr m c) shapeCasts_S16x1x256_S16x256 (ix2 s n) (ix3 s (0 : Fin 1) n) (by
    rw [Shape.rowMajor_val_two, Shape.rowMajor_val_three]
    show (s.val * 1 + 0) * 256 + n.val = s.val * 256 + n.val
    omega)

theorem tail_eq (c : Dev nD) :
    (Pipeline.afterTail₀ cfgs (dats m) 0 (V0 m) [hostOps1] c main_v11 : S16x256.Idx → EReal) = resultArr m c := by
  unfold Pipeline.afterTail₀
  show StableHlo.after hostOps1 _ (Proc.devRef .tc main_v11) = _
  after_results
  have hw : Pipeline.withArrays (cfgs 0).spec c (V0 m c) (fun w => (dats m 0 c).arrAt w (cfgs 0).N) (Proc.devRef .tc main_v10)
      = outArr m c :=
    (Pipeline.withArrays_arr spec0 launch0.win.arr_inj c (V0 m c) (fun w => (dats m 0 c).arrAt w cfg0.N) 7).trans (final m c)
  rw [hw]
  exact reshape_out m c

/-! ## The run, read -/

/-- Every weakly fair execution of the kernel program ends with its result at the specification's array and its
    arguments unchanged. -/
theorem run : θ_run defs (onTc (τ := τ) (main (F := Ideal))) ⟨m, fun _ => 0, ρ⟩ fun r => ∀ c : Dev nD,
      r.2.mem ((c.tc : Thread nD τ).loc main_v11) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v11 (Pipeline.mem_restRefs_of main_v11 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c)),
      ((h c).1 5).trans (((dats m 0 c).arrAt_in 5 rfl _).trans ((A_eq m c 5).trans (V_main_arg6 m c))),
      (((h c).2 main_arg7 (Pipeline.mem_restRefs_of main_arg7 (by decide) (by decide))).trans (W_main_arg7 m (dats m) c))⟩)
    (run_main m ρ)

end Cert.KernelIdeal.KValue

end
-- ==== Proof.RefValue.lean ====
/-
  The reference program's result, read entry by entry, is the specification.

  The reference gathers the embedding rows, projects them twice (a contraction with the transposed weight, plus the
  bias broadcast over batch and token), adds the first projection broadcast over the second token axis to the second
  broadcast over the first, rectifies, sums over both token axes, divides by 16384, and projects once more. Read at
  (s, n) this is Σ_k pooled(s,k)·Wrel(n,k) + brel(n) with pooled the mean of the rectified pair sums: `Spec.result`
  of the gathered rows and the seven float arguments.
-/
import proofs.«141220_j70841190580226_1_alg».proof.Proof.Gen.ReferenceIdeal.Read
import proofs.«141220_j70841190580226_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The sum over both token axes -/

/-- The entries of a [16,128,128,256] array that a reduction over axes 1 and 2 sends to (s, k) are the entries
    (s, p, q, k): their sum is the double sum over p and q. -/
theorem sum_pairs (h : S16x128x128x256.ReducesTo [1, 2] S16x256) (x : S16x128x128x256.Idx → EReal) (s : Fin 16) (k : Fin 256) :
    ∑ i ∈ Finset.univ.filter (fun i => h.drop i = ix2 s k), x i = ∑ p : Fin 128, ∑ q : Fin 128, x (ix4 s p q k) := by
  have hd0 : ∀ i : S16x128x128x256.Idx, (h.drop i 0 : Nat) = (i 0 : Nat) := fun i =>
    Shape.ReducesTo.drop_apply_val_of_eq h i 0 0
  have hd1 : ∀ i : S16x128x128x256.Idx, (h.drop i 1 : Nat) = (i 3 : Nat) := fun i =>
    Shape.ReducesTo.drop_apply_val_of_eq h i 1 3
  have key : ∀ i ∈ Finset.univ.filter (fun i => h.drop i = ix2 s k), ix4 s (i 1) (i 2) k = i := by
    intro i hi
    rw [Finset.mem_filter] at hi
    have h0 : (i 0 : Nat) = s.val := by rw [← hd0 i, hi.2]
    have h3 : (i 3 : Nat) = k.val := by rw [← hd1 i, hi.2]
    funext a
    apply Fin.ext
    match a with
    | ⟨0, _⟩ => exact h0.symm
    | ⟨1, _⟩ => rfl
    | ⟨2, _⟩ => rfl
    | ⟨3, _⟩ => exact h3.symm
  rw [← Fintype.sum_prod_type' (f := fun p q => x (ix4 s p q k))]
  refine Finset.sum_bij' (fun i _ => ((i 1, i 2) : Fin 128 × Fin 128)) (fun pq _ => ix4 s pq.1 pq.2 k)
    (fun _ _ => Finset.mem_univ _) ?_ key (fun _ _ => rfl) (fun i hi => congrArg x (key i hi).symm)
  intro pq _
  rw [Finset.mem_filter]
  refine ⟨Finset.mem_univ _, funext fun b => Fin.ext ?_⟩
  match b with
  | ⟨0, _⟩ => exact hd0 _
  | ⟨1, _⟩ => exact hd1 _

/-! ## The two projections -/

/-- The first projection at (s, p, k). -/
theorem projL_apply (x0 : (⟨S16x128, .i32⟩ : BufTy).Contents (Elt Ideal)) (x1 : (⟨S32000x256, .f32⟩ : BufTy).Contents (Elt Ideal))
    (x2 : (⟨S256x256, .f32⟩ : BufTy).Contents (Elt Ideal)) (x3 : (⟨S256, .f32⟩ : BufTy).Contents (Elt Ideal))
    (s : Fin 16) (p : Fin 128) (k : Fin 256) :
    val_main_v11 (F := Ideal) x0 x1 x2 x3 (ix3 s p k) = Cert.Spec.proj (val_main_v6 (F := Ideal) x0 x1) x2 x3 s p k := by
  unfold Cert.Spec.proj
  rw [val_main_v11_apply, val_main_v8_apply, val_main_v10_apply, val_main_v9_apply]
  refine congrArg₂ (· + ·) (Finset.sum_congr rfl fun d _ => ?_) (congrArg x3 ?_)
  · rw [val_main_v7_apply]
    refine congrArg₂ (· * ·) (congrArg _ ?_) (congrArg x2 ?_)
    · funext a; apply Fin.ext
      match a with
      | ⟨0, _⟩ => rfl
      | ⟨1, _⟩ => rfl
      | ⟨2, _⟩ => rfl
    · funext a; apply Fin.ext
      match a with
      | ⟨0, _⟩ => rfl
      | ⟨1, _⟩ => rfl
  · funext a; apply Fin.ext
    match a with
    | ⟨0, _⟩ => rfl

/-- The second projection at (s, q, k). -/
theorem projR_apply (x0 : (⟨S16x128, .i32⟩ : BufTy).Contents (Elt Ideal)) (x1 : (⟨S32000x256, .f32⟩ : BufTy).Contents (Elt Ideal))
    (x4 : (⟨S256x256, .f32⟩ : BufTy).Contents (Elt Ideal)) (x5 : (⟨S256, .f32⟩ : BufTy).Contents (Elt Ideal))
    (s : Fin 16) (q : Fin 128) (k : Fin 256) :
    val_main_v16 (F := Ideal) x0 x1 x4 x5 (ix3 s q k) = Cert.Spec.proj (val_main_v6 (F := Ideal) x0 x1) x4 x5 s q k := by
  unfold Cert.Spec.proj
  rw [val_main_v16_apply, val_main_v13_apply, val_main_v15_apply, val_main_v14_apply]
  refine congrArg₂ (· + ·) (Finset.sum_congr rfl fun d _ => ?_) (congrArg x5 ?_)
  · rw [val_main_v12_apply]
    refine congrArg₂ (· * ·) (congrArg _ ?_) (congrArg x4 ?_)
    · funext a; apply Fin.ext
      match a with
      | ⟨0, _⟩ => rfl
      | ⟨1, _⟩ => rfl
      | ⟨2, _⟩ => rfl
    · funext a; apply Fin.ext
      match a with
      | ⟨0, _⟩ => rfl
      | ⟨1, _⟩ => rfl
  · funext a; apply Fin.ext
    match a with
    | ⟨0, _⟩ => rfl

/-! ## The rectified pair values and their mean -/

/-- The rectified pair value at (s, p, q, k). -/
theorem pair_apply (x0 : (⟨S16x128, .i32⟩ : BufTy).Contents (Elt Ideal)) (x1 : (⟨S32000x256, .f32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (s : Fin 16) (p q : Fin 128) (k : Fin 256) :
    val_main_v22 (F := Ideal) x0 x1 x2 x3 x4 x5 (ix4 s p q k)
      = Cert.Spec.pair (val_main_v6 (F := Ideal) x0 x1) x2 x3 x4 x5 s k p q := by
  unfold Cert.Spec.pair
  rw [val_main_v22_apply, val_main_v21_apply, val_main_v19_apply, val_main_v17_apply, val_main_v20_apply, val_main_v18_apply,
    val_main_call0_v0_apply, val_main_call0_cst_apply]
  show max (val_main_v11 (F := Ideal) x0 x1 x2 x3 _ + val_main_v16 (F := Ideal) x0 x1 x4 x5 _) (Ideal.ofBits .f32 0x00000000#32) = _
  rw [Ideal.ofBits_zero_f32]
  refine congrArg (max · 0) (congrArg₂ (· + ·) ?_ ?_)
  · refine Eq.trans (congrArg _ ?_) (projL_apply x0 x1 x2 x3 s p k)
    funext a; apply Fin.ext
    match a with
    | ⟨0, _⟩ => rfl
    | ⟨1, _⟩ => rfl
    | ⟨2, _⟩ => rfl
  · refine Eq.trans (congrArg _ ?_) (projR_apply x0 x1 x4 x5 s q k)
    funext a; apply Fin.ext
    match a with
    | ⟨0, _⟩ => rfl
    | ⟨1, _⟩ => rfl
    | ⟨2, _⟩ => rfl

/-- The mean over the pairs at (s, k). -/
theorem pooled_apply (x0 : (⟨S16x128, .i32⟩ : BufTy).Contents (Elt Ideal)) (x1 : (⟨S32000x256, .f32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (s : Fin 16) (k : Fin 256) :
    val_main_v25 (F := Ideal) x0 x1 x2 x3 x4 x5 (ix2 s k)
      = Cert.Spec.pooled (val_main_v6 (F := Ideal) x0 x1) x2 x3 x4 x5 s k := by
  unfold Cert.Spec.pooled Cert.Spec.pairCount
  rw [val_main_v25_apply, val_main_v24_apply, val_main_cst_1_apply]
  show Ideal.div (val_main_v23 (F := Ideal) x0 x1 x2 x3 x4 x5 (ix2 s k)) (Ideal.ofBits .f32 0x46800000#32) = _
  refine congrArg (Ideal.div · (Ideal.ofBits .f32 0x46800000#32)) ?_
  unfold val_main_v23
  show Ideal.ofBits .f32 0x00000000#32 + ∑ i ∈ Finset.univ.filter (fun i => reducesTo_S16x128x128x256_S16x256_d1_2.drop i = ix2 s k),
      val_main_v22 (F := Ideal) x0 x1 x2 x3 x4 x5 i = _
  rw [Ideal.ofBits_zero_f32, zero_add, sum_pairs]
  exact Finset.sum_congr rfl fun p _ => Finset.sum_congr rfl fun q _ => pair_apply x0 x1 x2 x3 x4 x5 s p q k

/-! ## The result -/

/-- The reference's result array is the specification's, of the gathered rows and the float arguments. -/
theorem result_eq (x0 : (⟨S16x128, .i32⟩ : BufTy).Contents (Elt Ideal)) (x1 : (⟨S32000x256, .f32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal)) :
    val_main_v30 (F := Ideal) x0 x1 x2 x3 x4 x5 x6 x7
      = Cert.Spec.result (val_main_v6 (F := Ideal) x0 x1) x2 x3 x4 x5 x6 x7 := by
  funext i
  obtain ⟨s, n, rfl⟩ : ∃ (s : Fin 16) (n : Fin 256), i = ix2 s n := ⟨i 0, i 1, eq_ix2 i⟩
  show _ = Cert.Spec.out (val_main_v6 (F := Ideal) x0 x1) x2 x3 x4 x5 x6 x7 s n
  unfold Cert.Spec.out
  rw [val_main_v30_apply, val_main_v27_apply, val_main_v29_apply, val_main_v28_apply]
  refine congrArg₂ (· + ·) (Finset.sum_congr rfl fun k _ => ?_) (congrArg x7 ?_)
  · rw [val_main_v26_apply]
    refine congrArg₂ (· * ·) ?_ (congrArg x6 ?_)
    · refine Eq.trans (congrArg _ ?_) (pooled_apply x0 x1 x2 x3 x4 x5 s k)
      funext a; apply Fin.ext
      match a with
      | ⟨0, _⟩ => rfl
      | ⟨1, _⟩ => rfl
    · funext a; apply Fin.ext
      match a with
      | ⟨0, _⟩ => rfl
      | ⟨1, _⟩ => rfl
  · funext a; apply Fin.ext
    match a with
    | ⟨0, _⟩ => rfl

end Cert.ReferenceIdeal.RefValue

end
-- ==== Proof.lean ====
/-
  The certificate of the all-pairs relation kernel against its reference, over the extended reals.

  Both programs gather the embedding rows the same way, project them twice, rectify the sum of every ordered pair of
  token projections, take the mean over the 128² pairs and project once more. The kernel does the pair sum one batch
  row per grid point and one tile of 32 second tokens at a time; the reference in one reduction over both token axes.
  Over the extended reals addition is commutative and associative, so the two totals are one number, and every other
  step is the same operation on the same values: both results are `Spec.result` of the gathered rows and the seven
  float arguments (Proof/KernelValue.lean for the kernel, Proof/RefValue.lean for the reference). The three frames are
  the generated ones; the idealization rewrote nothing, so `preserves` is trivial.
-/
import proofs.«141220_j70841190580226_1_alg».proof.Defs
import proofs.«141220_j70841190580226_1_alg».proof.Proof.Gen.Kernel
import proofs.«141220_j70841190580226_1_alg».proof.Proof.Gen.Kernel.Skeleton
import proofs.«141220_j70841190580226_1_alg».proof.Proof.Gen.Kernel.Launch
import proofs.«141220_j70841190580226_1_alg».proof.Proof.Gen.Kernel.Points
import proofs.«141220_j70841190580226_1_alg».proof.Proof.Gen.Kernel.Frame
import proofs.«141220_j70841190580226_1_alg».proof.Proof.Gen.KernelIdeal
import proofs.«141220_j70841190580226_1_alg».proof.Proof.Gen.KernelIdeal.Skeleton
import proofs.«141220_j70841190580226_1_alg».proof.Proof.Gen.KernelIdeal.Launch
import proofs.«141220_j70841190580226_1_alg».proof.Proof.Gen.KernelIdeal.Points
import proofs.«141220_j70841190580226_1_alg».proof.Proof.Gen.KernelIdeal.Frame
import proofs.«141220_j70841190580226_1_alg».proof.Proof.Gen.ReferenceIdeal
import proofs.«141220_j70841190580226_1_alg».proof.Proof.Gen.Pre_finite_inputs
import proofs.«141220_j70841190580226_1_alg».proof.Proof.Gen.ReferenceIdeal.Run
import proofs.«141220_j70841190580226_1_alg».proof.Proof.Gen.ReferenceIdeal.Read
import proofs.«141220_j70841190580226_1_alg».proof.Proof.KernelValue
import proofs.«141220_j70841190580226_1_alg».proof.Proof.RefValue
import Idealize.ShloMosaic.Adequacy
import Idealize.ShloMosaic.Init

noncomputable section

namespace Cert.Proof

open Idealize.ShloMosaic Idealize.SL.Sem

/-- The gathered rows are the same function of the token ids and the table in both programs: the two programs print
    the same operations, each over its own copy of the shape records. -/
theorem gathered_eq (X : Cert.KernelIdeal.S16x128.Idx → BitVec 32) (emb : Cert.KernelIdeal.S32000x256.Idx → EReal) :
    Cert.ReferenceIdeal.Read.val_main_v6 (F := Ideal) X emb = Cert.KernelIdeal.KValue.gathered X emb := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the specification's array. -/
theorem algebraic : Cert.algebraic_KernelIdeal_ReferenceIdeal := by
  intro m ρ m' ρ' _ hagree
  refine ⟨fun c => Cert.KernelIdeal.KValue.resultArr m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v30_eq, Cert.ReferenceIdeal.RefValue.result_eq, a0, a1, a2, a3, a4, a5, a6, a7, gathered_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
